-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S2048x2048 : Shape := ⟨2, ![2048, 2048]⟩
abbrev S1x4096 : Shape := ⟨2, ![1, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S1x4096 : S_.BroadcastsInDim S1x4096 (![] : Fin 0 → Fin S1x4096.rank)
  reducesTo_S1x4096_S_d0_1 : S1x4096.ReducesTo [0, 1] S_

variable [Facts]

def fn_part1 {F : FTy → Type} [FloatOps F] (main_v13 : IVec S_ 1) (main_v16 : IVec S1x4096 1) : IVec S_ 1 :=
  let main_c_5 : IVec S_ 1 := constantI S_ 1 1#1
  let main_v17 : IVec S_ 1 := (fun x v => Host.reduce IntOp.andi x v reducesTo_S1x4096_S_d0_1 h_S_) main_v16 main_c_5
  let main_v18 : IVec S_ 1 := andi main_v13 main_v17
  main_v18

def fn {F : FTy → Type} [FloatOps F] (main_arg0 : FVec F S4x2048x4096 .f32) (main_arg1 : FVec F S4096x4096 .f32) (main_arg2 : FVec F S2048x2048 .f32) (main_arg3 : FVec F S1x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S1x4096 .f32 := Host.absf main_arg3
  let main_cst_4 : FVec F S_ .f32 := constant S_ .f32 0x7F800000#32
  let main_v15 : FVec F S1x4096 .f32 := broadcastInDim S1x4096 ![] bcast_S_S1x4096 main_cst_4
  let main_v16 : IVec S1x4096 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S2048x2048 : Shape := ⟨2, ![2048, 2048]⟩
abbrev S1x4096 : Shape := ⟨2, ![1, 4096]⟩
abbrev S2048x2x2048 : Shape := ⟨3, ![2048, 2, 2048]⟩
abbrev S4096x2048 : Shape := ⟨2, ![4096, 2048]⟩
abbrev S4096x2048x2 : Shape := ⟨3, ![4096, 2048, 2]⟩
abbrev S_ : Shape := ⟨0, ![]⟩
abbrev S4096 : Shape := ⟨1, ![4096]⟩
abbrev S8192x4096 : Shape := ⟨2, ![8192, 4096]⟩
abbrev S1024x1024 : Shape := ⟨2, ![1024, 1024]⟩

abbrev nBuf : Space → Nat
  | .hbm => 21
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S2048x2048, .f32⟩
  | .hbm, ⟨3, _⟩ => ⟨S1x4096, .f32⟩
  | .hbm, ⟨4, _⟩ => ⟨S2048x2x2048, .f32⟩
  | .hbm, ⟨5, _⟩ => ⟨S4096x2048, .f32⟩
  | .hbm, ⟨6, _⟩ => ⟨S4096x2048x2, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096, .f32⟩
  | .hbm, ⟨12, _⟩ => ⟨S1x4096, .f32⟩
  | .hbm, ⟨13, _⟩ => ⟨S1x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S8192x4096, .f32⟩
  | .hbm, ⟨19, _⟩ => ⟨S8192x4096, .f32⟩
  | .hbm, ⟨20, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bcast_S2048x2048_S2048x2x2048_0_2 : S2048x2048.BroadcastsInDim S2048x2x2048 (![0, 2] : Fin 2 → Fin S2048x2x2048.rank)
  shapeCasts_S2048x2x2048_S4096x2048 : S2048x2x2048.ShapeCasts S4096x2048
  bcast_S4096x2048_S4096x2048x2_0_1 : S4096x2048.BroadcastsInDim S4096x2048x2 (![0, 1] : Fin 2 → Fin S4096x2048x2.rank)
  shapeCasts_S4096x2048x2_S4096x4096 : S4096x2048x2.ShapeCasts S4096x4096
  reducesTo_S4096x4096_S4096_d0 : S4096x4096.ReducesTo [0] S4096
  h_S_ : 0 < S_.numel
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  shapeCasts_S4x2048x4096_S8192x4096 : S4x2048x4096.ShapeCasts S8192x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  shapeCasts_S8192x4096_S4x2048x4096 : S8192x4096.ShapeCasts S4x2048x4096
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v10) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S2048x2048 : Shape := ⟨2, ![2048, 2048]⟩
abbrev S1x4096 : Shape := ⟨2, ![1, 4096]⟩
abbrev S2048x2x2048 : Shape := ⟨3, ![2048, 2, 2048]⟩
abbrev S4096x2048 : Shape := ⟨2, ![4096, 2048]⟩
abbrev S4096x2048x2 : Shape := ⟨3, ![4096, 2048, 2]⟩
abbrev S_ : Shape := ⟨0, ![]⟩
abbrev S4096 : Shape := ⟨1, ![4096]⟩

abbrev nBuf : Space → Nat
  | .hbm => 19
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S2048x2048, .f32⟩
  | .hbm, ⟨3, _⟩ => ⟨S1x4096, .f32⟩
  | .hbm, ⟨4, _⟩ => ⟨S2048x2x2048, .f32⟩
  | .hbm, ⟨5, _⟩ => ⟨S4096x2048, .f32⟩
  | .hbm, ⟨6, _⟩ => ⟨S4096x2048x2, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096, .f32⟩
  | .hbm, ⟨12, _⟩ => ⟨S1x4096, .f32⟩
  | .hbm, ⟨13, _⟩ => ⟨S1x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S2048x2048_S2048x2x2048_0_2 : S2048x2048.BroadcastsInDim S2048x2x2048 (![0, 2] : Fin 2 → Fin S2048x2x2048.rank)
  shapeCasts_S2048x2x2048_S4096x2048 : S2048x2x2048.ShapeCasts S4096x2048
  bcast_S4096x2048_S4096x2048x2_0_1 : S4096x2048.BroadcastsInDim S4096x2048x2 (![0, 1] : Fin 2 → Fin S4096x2048x2.rank)
  shapeCasts_S4096x2048x2_S4096x4096 : S4096x2048x2.ShapeCasts S4096x4096
  reducesTo_S4096x4096_S4096_d0 : S4096x4096.ReducesTo [0] S4096
  h_S_ : 0 < S_.numel
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
/-
  What one run of the kernel body leaves behind, as values.

  The body keeps a 1024 × 1024 accumulator in scratch memory.  At a point whose third grid coordinate is 0 it first
  overwrites the accumulator with zeros; at every point it then adds to the accumulator the product of the left block
  with the transpose of the right block, and copies the accumulator into the output block.  So, writing
  `step a b acc = acc + a · bᵀ` for the body's one arithmetic step (its payload `k0_pay2`), both the output block
  and the accumulator end at

      step a b 0        at a point that resets (case A),
      step a b acc      at any other point, `acc` being what the point before left (case B).

  Each statement reads the stores the body's run recorded back as one whole-block value: the last store covers the
  block, and the load that feeds the output store reads the accumulator's covering store back.
-/
import proofs.«107128_j8143257994015_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Body

open Cert.KernelIdeal Cert.KernelIdeal.Gen

variable {F : FTy → Type} [FloatOps F]

theorem hz : (![0, 0] : Fin 2 → Nat) = fun _ => 0 := funext fun a => by fin_cases a <;> rfl

/-- Case B, the output block: the accumulator's new value, `step a b acc`. -/
theorem out_B (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc : ¬cond0_0 i) (x0 x1 xs : Vec F S1024x1024 .f32) :
    out0_B_2 c i a3 h3 a4 h4 a5 h5 a6 h6 hc x0 x1 xs = k0_pay2 x0 x1 xs := by
  unfold out0_B_2
  rw [View.read_writes_eq_canon _ _ _ (cover0_B_2 c i a3 h3 a4 h4 a5 h5 a6 h6 hc x0 x1 xs)]
  unfold kernelRun0_B
  dsimp only
  sl_unfold_words
  rw [View.canon_unit_zero hz]
  simp only [View.readAt_eq_ld, h3.read_unread, h4.read_unread, h6.read_unread, View.ld_unit_zero (S := S1024x1024) hz,
    View.readCov_unit_zero (S := S1024x1024) _ hz]

/-- Case B, the accumulator: the same value. -/
theorem acc_B (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc : ¬cond0_0 i) (x0 x1 xs : Vec F S1024x1024 .f32) :
    sout0_B_0 c i a3 h3 a4 h4 a5 h5 a6 h6 hc x0 x1 xs = k0_pay2 x0 x1 xs := by
  unfold sout0_B_0
  rw [View.read_writes_eq_canon _ _ _ (scover0_B_0 c i a3 h3 a4 h4 a5 h5 a6 h6 hc x0 x1 xs)]
  unfold kernelRun0_B
  dsimp only
  sl_unfold_words
  rw [View.canon_unit_zero hz]
  simp only [View.readAt_eq_ld, h3.read_unread, h4.read_unread, h6.read_unread, View.ld_unit_zero (S := S1024x1024) hz,
    View.readCov_unit_zero (S := S1024x1024) _ hz]

/-- Case A, the output block: `step a b 0`, the zero block being the reset's payload `k0_pay1`. -/
theorem out_A (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc : cond0_0 i) (x0 x1 : Vec F S1024x1024 .f32) :
    out0_A_2 c i a3 h3 a4 h4 a5 h5 a6 h6 hc x0 x1 = k0_pay2 x0 x1 k0_pay1 := by
  unfold out0_A_2
  rw [View.read_writes_eq_canon _ _ _ (cover0_A_2 c i a3 h3 a4 h4 a5 h5 a6 h6 hc x0 x1)]
  unfold kernelRun0_A
  dsimp only
  sl_unfold_words
  rw [View.canon_unit_zero hz]
  simp only [View.readAt_eq_ld, h3.read_unread, h4.read_unread, View.ld_unit_zero (S := S1024x1024) hz,
    View.readCov_unit_zero (S := S1024x1024) _ hz, View.readCov_cons_toLoadRect]

/-- Case A, the accumulator: the reset's zeros, then the step's store over them. -/
theorem acc_A (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc : cond0_0 i) (x0 x1 : Vec F S1024x1024 .f32) :
    sout0_A_0 c i a3 h3 a4 h4 a5 h5 a6 h6 hc x0 x1 = k0_pay2 x0 x1 k0_pay1 := by
  unfold sout0_A_0
  rw [View.read_writes_eq_canon _ _ _ (scover0_A_0 c i a3 h3 a4 h4 a5 h5 a6 h6 hc x0 x1)]
  unfold kernelRun0_A
  dsimp only
  sl_unfold_words
  rw [View.canon_cons_unit_zero (S := S1024x1024) hz]
  simp only [View.readAt_eq_ld, h3.read_unread, h4.read_unread, View.ld_unit_zero (S := S1024x1024) hz,
    View.readCov_unit_zero (S := S1024x1024) _ hz]

end Cert.KernelIdeal.Body

end
-- ==== Proof.PointValues.lean ====
/-
  What the accumulator and the output block hold after each grid point.

  The grid's 128 points run with the contraction coordinate fastest: point `t` works on stretch `t % 4` of the
  contraction axis.  With `a t` and `b t` the left and right blocks the pipeline fetched for point `t`:

    * at a point with `t % 4 = 0` the accumulator ends at `step (a t) (b t) 0`;
    * at any other point it ends at `step (a t) (b t) acc`, `acc` being what point `t - 1` left in it;
    * at every point the output block ends equal to the accumulator.
-/
import proofs.«107128_j8143257994015_1_alg».proof.Proof.Pieces

noncomputable section

open Idealize.ShloMosaic Idealize.ShloMosaic.TcCoe Idealize.SL.Sem

namespace Cert.KernelIdeal.Body

open Cert.KernelIdeal Cert.KernelIdeal.Gen

variable {F : FTy → Type} [FloatOps F]
variable (m : (ℓ : Loc nD τ sig) → Buf (Elt F) ℓ)

/-- The left block at point `t`: a 1024 × 1024 block of the flattened tokens. -/
abbrev ablk (c : Dev nD) (t : Fin cfg0.N) : Vec F S1024x1024 .f32 := iblk m c 0 t
/-- The right block at point `t`: a 1024 × 1024 block of the rescaled weight. -/
abbrev bblk (c : Dev nD) (t : Fin cfg0.N) : Vec F S1024x1024 .f32 := iblk m c 1 t

/-- The accumulator after a resetting point. -/
theorem acc_at_reset (c : Dev nD) (t : Fin cfg0.N) (h0 : t.val % 4 = 0) :
    (outsAt0 m c t.val t.isLt).2 = k0_pay2 (ablk m c t) (bblk m c t) k0_pay1 := by
  rw [outsAt0_A m c t h0]; dsimp only
  exact acc_A c (grid0.coords t) (ms0_0 t) (hs0_0 t) (ms0_1 t) (hs0_1 t) (ms0_2 t) (hs0_2 t) scM0_0 (Memref.isWhole_whole _)
    ((hcond0_0 t).mpr h0) (iblk m c 0 t) (iblk m c 1 t)

/-- The accumulator after any other point, over what the point before left. -/
theorem acc_at_step (c : Dev nD) (t : Fin cfg0.N) (h0 : ¬t.val % 4 = 0) :
    (outsAt0 m c t.val t.isLt).2
      = k0_pay2 (ablk m c t) (bblk m c t) (outsAt0 m c (t.val - 1) (Nat.lt_of_le_of_lt (Nat.sub_le _ _) t.isLt)).2 := by
  rw [outsAt0_B m c t h0]; dsimp only
  exact acc_B c (grid0.coords t) (ms0_0 t) (hs0_0 t) (ms0_1 t) (hs0_1 t) (ms0_2 t) (hs0_2 t) scM0_0 (Memref.isWhole_whole _)
    (fun h => h0 ((hcond0_0 t).mp h)) (iblk m c 0 t) (iblk m c 1 t)
    (outsAt0 m c (t.val - 1) (Nat.lt_of_le_of_lt (Nat.sub_le _ _) t.isLt)).2

/-- The output block after a resetting point. -/
theorem out_at_reset (c : Dev nD) (t : Fin cfg0.N) (h0 : t.val % 4 = 0) :
    (outsAt0 m c t.val t.isLt).1 = k0_pay2 (ablk m c t) (bblk m c t) k0_pay1 := by
  rw [outsAt0_A m c t h0]; dsimp only
  exact out_A c (grid0.coords t) (ms0_0 t) (hs0_0 t) (ms0_1 t) (hs0_1 t) (ms0_2 t) (hs0_2 t) scM0_0 (Memref.isWhole_whole _)
    ((hcond0_0 t).mpr h0) (iblk m c 0 t) (iblk m c 1 t)

/-- The output block after any other point. -/
theorem out_at_step (c : Dev nD) (t : Fin cfg0.N) (h0 : ¬t.val % 4 = 0) :
    (outsAt0 m c t.val t.isLt).1
      = k0_pay2 (ablk m c t) (bblk m c t) (outsAt0 m c (t.val - 1) (Nat.lt_of_le_of_lt (Nat.sub_le _ _) t.isLt)).2 := by
  rw [outsAt0_B m c t h0]; dsimp only
  exact out_B c (grid0.coords t) (ms0_0 t) (hs0_0 t) (ms0_1 t) (hs0_1 t) (ms0_2 t) (hs0_2 t) scM0_0 (Memref.isWhole_whole _)
    (fun h => h0 ((hcond0_0 t).mp h)) (iblk m c 0 t) (iblk m c 1 t)
    (outsAt0 m c (t.val - 1) (Nat.lt_of_le_of_lt (Nat.sub_le _ _) t.isLt)).2

/-- At every point the output block holds what the accumulator holds. -/
theorem out_eq_acc (c : Dev nD) (t : Fin cfg0.N) : (outsAt0 m c t.val t.isLt).1 = (outsAt0 m c t.val t.isLt).2 := by
  by_cases h0 : t.val % 4 = 0
  · exact (out_at_reset m c t h0).trans (acc_at_reset m c t h0).symm
  · exact (out_at_step m c t h0).trans (acc_at_step m c t h0).symm

end Cert.KernelIdeal.Body

end
-- ==== Proof.Blocks.lean ====
/-
  Which entries of the arrays the blocks of a grid point are.

  Point `t` of the 8 × 4 × 4 grid has coordinates `(t / 16, t / 4 % 4, t % 4)`: a block of 1024 token rows, a block of
  1024 output features, a stretch of 1024 contraction coordinates.  The left block at `t` is rows
  `1024 * (t / 16) + p` and columns `1024 * (t % 4) + k` of the flattened tokens; the right block is rows
  `1024 * (t / 4 % 4) + q` and the same columns of the rescaled weight; the output block is rows `1024 * (t / 16) + p`
  and columns `1024 * (t / 4 % 4) + q` of the result.
-/
import proofs.«107128_j8143257994015_1_alg».proof.Proof.PointValues
import Idealize.ShloMosaic.Lib.ValueIdx

noncomputable section

open Idealize.ShloMosaic Idealize.ShloMosaic.TcCoe Idealize.SL.Sem Idealize.ShloMosaic.ValueIdx

namespace Cert.KernelIdeal.Body

open Cert.KernelIdeal Cert.KernelIdeal.Gen

variable {F : FTy → Type} [FloatOps F]
variable (m : (ℓ : Loc nD τ sig) → Buf (Elt F) ℓ)

/-- The flattened tokens, as the kernel's region finds them. -/
abbrev xarr (c : Dev nD) : Vec F S8192x4096 .f32 := V m c main_v10
/-- The rescaled weight, as the kernel's region finds it. -/
abbrev warr (c : Dev nD) : Vec F S4096x4096 .f32 := V m c main_v9

/-- The three windows' block indices at point `t`, from the point's position in the grid. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = t.val / 16 ∧ win0_2.index t (1 : Fin 2) = t.val / 4 % 4 :=
  (by decide +kernel : ∀ t : Fin grid0.N, _)

/-- Entry `(p, k)` of the left block at `t` is entry `(1024 * (t / 16) + p, 1024 * (t % 4) + k)` of the tokens. -/
theorem ablk_apply (c : Dev nD) (t : Fin cfg0.N) (p k : Fin 1024) (r : Fin 8192) (d : Fin 4096)
    (hr : r.val = t.val / 16 * 1024 + p.val) (hd : d.val = 1024 * (t.val % 4) + k.val) :
    ablk m c t (ix2 p k) = xarr m c (ix2 r d) := by
  obtain ⟨e0, e1, -, -, -, -⟩ := idx_facts t
  show iblk m c 0 t (ix2 p k) = _
  unfold iblk
  rw [View.read_apply]
  show V m c main_v10 _ = V m c main_v10 _
  congr 1
  funext a
  apply Fin.ext
  match a with
  | ⟨0, _⟩ => show win0_0.index t (0 : Fin 2) * 1024 + 1 * p.val = r.val; rw [e0, hr]; omega
  | ⟨1, _⟩ => show win0_0.index t (1 : Fin 2) * 1024 + 1 * k.val = d.val; rw [e1, hd]; omega

/-- Entry `(q, k)` of the right block at `t` is entry `(1024 * (t / 4 % 4) + q, 1024 * (t % 4) + k)` of the weight. -/
theorem bblk_apply (c : Dev nD) (t : Fin cfg0.N) (q k : Fin 1024) (o d : Fin 4096)
    (ho : o.val = t.val / 4 % 4 * 1024 + q.val) (hd : d.val = 1024 * (t.val % 4) + k.val) :
    bblk m c t (ix2 q k) = warr m c (ix2 o d) := by
  obtain ⟨-, -, e0, e1, -, -⟩ := idx_facts t
  show iblk m c 1 t (ix2 q k) = _
  unfold iblk
  rw [View.read_apply]
  show V m c main_v9 _ = V m c main_v9 _
  congr 1
  funext a
  apply Fin.ext
  match a with
  | ⟨0, _⟩ => show win0_1.index t (0 : Fin 2) * 1024 + 1 * q.val = o.val; rw [e0, ho]; omega
  | ⟨1, _⟩ => show win0_1.index t (1 : Fin 2) * 1024 + 1 * k.val = d.val; rw [e1, hd]; omega

end Cert.KernelIdeal.Body

end
-- ==== Proof.LibDotNT.lean ====
/-
  A matrix product of two row-major operands contracted along their LAST axes, read at an entry.

  For dimension numbers that contract axis 1 of an `M × K` left operand with axis 1 of an `N × K` right operand
  (`l · rᵀ`, what `dot_general(a, b, (((1,), (1,)), ((), ())))` prints) and have no batch axes, the contraction index is one
  coordinate `k : Fin K`, the left operand is read at `(a, k)` and the right operand at `(b, k)`: the sum over the
  contraction index is `∑ k : Fin K`. At the ideal instance this reads a kernel's matrix product into a zero
  accumulator, and a host program's `dot_general`, at entry `(a, b)`.
-/
import Idealize.ShloMosaic.PureOps.Ideal
import Idealize.ShloMosaic.PureOps.Ideal.Laws
import Idealize.ShloMosaic.Lib.ValueIdx

noncomputable section

open scoped BigOperators

namespace Cert.LibDotNT

open Idealize.ShloMosaic Idealize.ShloMosaic.ValueIdx

/-- The sum over the contraction index of an `M × K` by `N × K` product contracted along both last axes, as a sum over
    `Fin K`. -/
theorem nt_sum {M K N : Nat} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    {α : Type} [AddCommMonoid α] (f : (⟨2, ![M, K]⟩ : Shape).Idx → (⟨2, ![N, K]⟩ : Shape).Idx → α) (a : Fin M) (b : Fin N) :
    ∑ k : d.contr.Idx, f (d.lhsIdx (ix2 a b) k) (d.rhsIdx (ix2 a b) k) = ∑ k : Fin K, f (ix2 a k) (ix2 b k) := by
  obtain ⟨lc, rc, ln, rn, lb, rb, wf⟩ := d
  dsimp only at h1 h2 h3 h4 h5 h6
  subst h1 h2 h3 h4 h5 h6
  have hr : (DotDims.mk [1] [1] [0] [0] [] [] wf : DotDims ⟨2, ![M, K]⟩ ⟨2, ![N, K]⟩ ⟨2, ![M, N]⟩).contr.rank = 1 := rfl
  have hs : (DotDims.mk [1] [1] [0] [0] [] [] wf : DotDims ⟨2, ![M, K]⟩ ⟨2, ![N, K]⟩ ⟨2, ![M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
  · funext c
    match c with
    | ⟨0, _⟩ => exact Fin.ext rfl
    | ⟨1, _⟩ => exact Fin.ext rfl

/-- A kernel's matrix product `l · rᵀ` into the zero accumulator, at the ideal instance, at entry `(a, b)`. -/
theorem matmul_zero_apply {M K N : Nat} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = []) {φ₁ φ₂ : FTy}
    (prec : Option ContractPrecision) (l : FVec Ideal ⟨2, ![M, K]⟩ φ₁) (r : FVec Ideal ⟨2, ![N, K]⟩ φ₂) (a : Fin M) (b : Fin N) :
    matmul d prec l r (constant ⟨2, ![M, N]⟩ .f32 0x00000000#32) (ix2 a b) = ∑ k : Fin K, l (ix2 a k) * r (ix2 b k) := by
  show FloatOps.matmul d prec l r (constant ⟨2, ![M, N]⟩ .f32 0x00000000#32) (ix2 a b) = _
  rw [Ideal.matmul_constant_zero_apply]
  exact nt_sum d h1 h2 h3 h4 h5 h6 (fun i j => l i * r j) a b

/-- A host program's `dot_general` of the same dimension numbers, at the ideal instance, at entry `(a, b)`. -/
theorem dotGeneral_apply {M K N : Nat} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = []) {φ₁ φ₂ : FTy}
    (prec : Option ContractPrecision) (l : FVec Ideal ⟨2, ![M, K]⟩ φ₁) (r : FVec Ideal ⟨2, ![N, K]⟩ φ₂) (a : Fin M) (b : Fin N) :
    Host.dotGeneral d prec l r (ix2 a b) = ∑ k : Fin K, l (ix2 a k) * r (ix2 b k) := by
  show FloatOps.dotGeneral d prec .single l r (ix2 a b) = _
  rw [Ideal.dotGeneral_apply]
  exact nt_sum d h1 h2 h3 h4 h5 h6 (fun i j => l i * r j) a b

end Cert.LibDotNT

end
-- ==== Proof.Step.lean ====
/-
  The body's arithmetic step at one entry, over the extended reals.

  `step a b acc` rounds the two 1024 × 1024 blocks `a` and `b` to a shorter float format, multiplies `a` by the transpose
  of `b` starting from a zero block, and adds the product to `acc`.  Over the extended reals a change of float format
  is the identity and the product's entry `(p, q)` is the inner product of row `p` of `a` with row `q` of `b`, so

      step a b acc (p, q) = acc (p, q) + ∑ k < 1024, a (p, k) * b (q, k),

  and the block the reset stores is zero at every entry.
-/
import proofs.«107128_j8143257994015_1_alg».proof.Proof.Gen.KernelIdeal.Skeleton
import proofs.«107128_j8143257994015_1_alg».proof.Proof.LibDotNT
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Body

open Cert.KernelIdeal Cert.KernelIdeal.Gen

/-- The step at entry `(p, q)`: the accumulator's entry plus the inner product of the two blocks' rows. -/
theorem step_apply (a b acc : Vec Ideal S1024x1024 .f32) (p q : Fin 1024) :
    k0_pay2 (F := Ideal) a b acc (ix2 p q) = acc (ix2 p q) + ∑ k : Fin 1024, a (ix2 p k) * b (ix2 q k) := by
  unfold k0_pay2
  simp only [shapeCast_self]
  refine congrArg (fun z => acc (ix2 p q) + z) ?_
  exact Cert.LibDotNT.matmul_zero_apply dot_S1024x1024_S1024x1024_S1024x1024_1_1_0_0_n_n rfl rfl rfl rfl rfl rfl none
    (truncf .bf16 a bitsLt_bf16_f32) (truncf .bf16 b bitsLt_bf16_f32) p q

/-- The reset's block is zero at every entry. -/
theorem reset_apply (p q : Fin 1024) : k0_pay1 (F := Ideal) (ix2 p q) = 0 := by
  unfold k0_pay1
  simp only [shapeCast_self]
  exact Ideal.ofBits_zero_f32

end Cert.KernelIdeal.Body

end
-- ==== Proof.LibBlockSum.lean ====
/-
  Three general facts: a sum over B·R indices taken block by block, a 32-bit word read as a small natural number, and an
  indicator times an extended real.
-/
import Mathlib.Logic.Equiv.Fin.Basic
import Mathlib.Data.Fintype.BigOperators
import Mathlib.Algebra.BigOperators.Group.Finset.Defs
import Mathlib.Data.EReal.Operations

noncomputable section

open scoped BigOperators

namespace Cert.LibBlockSum

/-! ## A sum over B·R indices, block by block -/

/-- Entry `r` of block `t`, among `N = B * R` indices cut into `B` consecutive blocks of `R`: the index `R * t + r`. -/
def blockIdx {B R N : Nat} (h : B * R = N) (t : Fin B) (r : Fin R) : Fin N :=
  ⟨R * t.val + r.val, by
    have ht := t.isLt
    have hr := r.isLt
    calc R * t.val + r.val < R * t.val + R := by omega
      _ = R * (t.val + 1) := by rw [Nat.mul_succ]
      _ ≤ R * B := Nat.mul_le_mul_left _ ht
      _ = N := by rw [Nat.mul_comm]; exact h⟩

/-- Its value is `R * t + r`. -/
theorem blockIdx_val {B R N : Nat} (h : B * R = N) (t : Fin B) (r : Fin R) :
    (blockIdx h t r).val = R * t.val + r.val := rfl

/-- A sum over `N = B * R` indices is the sum over the `B` blocks of the sum over each block's `R` entries. -/
theorem sum_blocks {M : Type*} [AddCommMonoid M] {B R N : Nat} (h : B * R = N) (f : Fin N → M) :
    ∑ n : Fin N, f n = ∑ t : Fin B, ∑ r : Fin R, f (blockIdx h t r) := by
  subst h
  rw [← Equiv.sum_comp (finProdFinEquiv (m := B) (n := R)) f, Fintype.sum_prod_type]
  refine Finset.sum_congr rfl fun t _ => Finset.sum_congr rfl fun r _ => congrArg f (Fin.ext ?_)
  show r.val + R * t.val = R * t.val + r.val
  exact Nat.add_comm _ _

/-! ## A 32-bit word that is a small natural number -/

/-- A 32-bit word is the word of a natural number `g` below `2 ^ 31` exactly when, read as a signed integer, it is `g`. -/
theorem eq_ofNat_iff_toInt_eq (b : BitVec 32) (g : Nat) (hg : g < 2 ^ 31) :
    b = BitVec.ofNat 32 g ↔ b.toInt = (g : Int) := by
  have e : (BitVec.ofNat 32 g).toInt = (g : Int) := by
    rw [BitVec.toInt_eq_toNat_of_lt (by rw [BitVec.toNat_ofNat]; omega), BitVec.toNat_ofNat]
    omega
  rw [← e]
  exact BitVec.toInt_inj.symm

/-! ## An indicator times an extended real -/

/-- One or zero, by a condition, times an extended real is the real or zero, by the condition. -/
theorem ite_one_zero_mul (p : Prop) [Decidable p] (x : EReal) :
    (if p then (1 : EReal) else 0) * x = if p then x else 0 := by
  split
  · exact one_mul x
  · exact zero_mul x

/-- The example: 100000 indices as 20 blocks of 5000 (name the two factors: the product alone does not determine them). -/
example {M : Type*} [AddCommMonoid M] (f : Fin 100000 → M) :
    ∑ n : Fin 100000, f n = ∑ t : Fin 20, ∑ r : Fin 5000, f (blockIdx (B := 20) (R := 5000) (N := 100000) (by norm_num) t r) :=
  sum_blocks (B := 20) (R := 5000) (by norm_num) f

end Cert.LibBlockSum

end
-- ==== Proof.Spec.lean ====
/-
  The linear layer as ONE function of its two operand arrays, and the regrouping of its sum.

  Tokens are the rows of a row-major `8192 × 4096` array `X` (the `4 × 2048` batch-and-sequence positions flattened);
  the rescaled weight is a `4096 × 4096` array `W` whose row `o` holds output feature `o`'s coefficients.  Entry `(r, o)`
  of the layer's result is the inner product of row `r` of `X` with row `o` of `W`:

      y r o = ∑ d < 4096, X r d * W o d.

  The contraction axis splits into four consecutive stretches of 1024 coordinates, `d = 1024 * t + k`.  Over the extended
  reals addition is commutative and associative (no cancellation is used anywhere), so the whole sum is the sum over
  the four stretches of each stretch's partial inner product, with no side condition on the entries.

  Flattening the tokens `x[b, s, ·]` to rows `2048 * b + s` and un-flattening the result's rows the same way are
  row-major re-indexings that undo each other, so the layer on the flattened rows, un-flattened, is the layer on the
  tokens indexed by batch and position (`unflatten_rows`).
-/
import Idealize.ShloMosaic.PureOps.Ideal
import Idealize.ShloMosaic.Lib.ValueIdx
import Idealize.ShloMosaic.Lib.Pipeline.Value
import proofs.«107128_j8143257994015_1_alg».proof.Proof.LibBlockSum

noncomputable section

open scoped BigOperators

namespace Cert.Linear

open Idealize.ShloMosaic Idealize.ShloMosaic.ValueIdx Cert.LibBlockSum

/-- Coordinate `k` of stretch `t` of the contraction axis: `1024 * t + k`. -/
abbrev kIdx (t : Fin 4) (k : Fin 1024) : Fin 4096 := blockIdx (B := 4) (R := 1024) (N := 4096) (by norm_num) t k

theorem kIdx_val (t : Fin 4) (k : Fin 1024) : (kIdx t k).val = 1024 * t.val + k.val := rfl

/-- Entry `(r, o)` of the layer: row `r` of the tokens against row `o` of the weight. -/
def entry (X : (⟨2, ![8192, 4096]⟩ : Shape).Idx → EReal) (W : (⟨2, ![4096, 4096]⟩ : Shape).Idx → EReal)
    (r : Fin 8192) (o : Fin 4096) : EReal :=
  ∑ d : Fin 4096, X (ix2 r d) * W (ix2 o d)

/-- Stretch `t`'s share of entry `(r, o)`: the partial inner product over the coordinates `1024 * t + k`. -/
def part (X : (⟨2, ![8192, 4096]⟩ : Shape).Idx → EReal) (W : (⟨2, ![4096, 4096]⟩ : Shape).Idx → EReal)
    (r : Fin 8192) (o : Fin 4096) (t : Fin 4) : EReal :=
  ∑ k : Fin 1024, X (ix2 r (kIdx t k)) * W (ix2 o (kIdx t k))

/-- The entry is the sum of its four stretches' shares. -/
theorem entry_eq_sum_part (X : (⟨2, ![8192, 4096]⟩ : Shape).Idx → EReal) (W : (⟨2, ![4096, 4096]⟩ : Shape).Idx → EReal)
    (r : Fin 8192) (o : Fin 4096) : entry X W r o = ∑ t : Fin 4, part X W r o t :=
  sum_blocks (B := 4) (R := 1024) (N := 4096) (by norm_num) fun d => X (ix2 r d) * W (ix2 o d)

/-- The layer on the flattened tokens, as an array. -/
def rows (X : (⟨2, ![8192, 4096]⟩ : Shape).Idx → EReal) (W : (⟨2, ![4096, 4096]⟩ : Shape).Idx → EReal) :
    (⟨2, ![8192, 4096]⟩ : Shape).Idx → EReal :=
  fun i => entry X W (i 0) (i 1)

theorem rows_apply (X : (⟨2, ![8192, 4096]⟩ : Shape).Idx → EReal) (W : (⟨2, ![4096, 4096]⟩ : Shape).Idx → EReal)
    (r : Fin 8192) (o : Fin 4096) : rows X W (ix2 r o) = entry X W r o := rfl

/-- The layer on tokens indexed by batch and position: entry `(b, s, o)` contracts `x[b, s, ·]` with `W[o, ·]`. -/
def layer (x : (⟨3, ![4, 2048, 4096]⟩ : Shape).Idx → EReal) (W : (⟨2, ![4096, 4096]⟩ : Shape).Idx → EReal) :
    (⟨3, ![4, 2048, 4096]⟩ : Shape).Idx → EReal :=
  fun i => ∑ d : Fin 4096, x (ix3 (i 0) (i 1) d) * W (ix2 (i 2) d)

theorem layer_apply (x : (⟨3, ![4, 2048, 4096]⟩ : Shape).Idx → EReal) (W : (⟨2, ![4096, 4096]⟩ : Shape).Idx → EReal)
    (b : Fin 4) (s : Fin 2048) (o : Fin 4096) :
    layer x W (ix3 b s o) = ∑ d : Fin 4096, x (ix3 b s d) * W (ix2 o d) := rfl

/-- Row `2048 * b + s` of the flattened tokens is token `(b, s)`. -/
theorem flatten_apply (x : (⟨3, ![4, 2048, 4096]⟩ : Shape).Idx → EReal)
    (h : (⟨3, ![4, 2048, 4096]⟩ : Shape).ShapeCasts ⟨2, ![8192, 4096]⟩) (b : Fin 4) (s : Fin 2048) (d : Fin 4096)
    (r : Fin 8192) (hr : r.val = b.val * 2048 + s.val) :
    shapeCast ⟨2, ![8192, 4096]⟩ x h (ix2 r d) = x (ix3 b s d) :=
  shapeCast_apply x h (ix2 r d) (ix3 b s d) (by
    rewrite [Shape.rowMajor_val_three, Shape.rowMajor_val_two]
    show (b.val * 2048 + s.val) * 4096 + d.val = r.val * 4096 + d.val
    rw [hr])

/-- The layer on the flattened tokens, with its rows un-flattened, is the layer on the tokens. -/
theorem unflatten_rows (x : (⟨3, ![4, 2048, 4096]⟩ : Shape).Idx → EReal) (W : (⟨2, ![4096, 4096]⟩ : Shape).Idx → EReal)
    (h : (⟨3, ![4, 2048, 4096]⟩ : Shape).ShapeCasts ⟨2, ![8192, 4096]⟩)
    (h' : (⟨2, ![8192, 4096]⟩ : Shape).ShapeCasts ⟨3, ![4, 2048, 4096]⟩) :
    shapeCast ⟨3, ![4, 2048, 4096]⟩ (rows (shapeCast ⟨2, ![8192, 4096]⟩ x h) W) h' = layer x W := by
  funext i
  obtain ⟨b, s, o, rfl⟩ : ∃ (b : Fin 4) (s : Fin 2048) (o : Fin 4096), i = ix3 b s o := ⟨i 0, i 1, i 2, eq_ix3 i⟩
  have hb := b.isLt
  have hs := s.isLt
  rw [shapeCast_apply _ h' (ix3 b s o) (ix2 (⟨b.val * 2048 + s.val, by omega⟩ : Fin 8192) o) (by
      rewrite [Shape.rowMajor_val_three, Shape.rowMajor_val_two]
      show (b.val * 2048 + s.val) * 4096 + o.val = (b.val * 2048 + s.val) * 4096 + o.val
      rfl),
    rows_apply, layer_apply]
  unfold entry
  exact Finset.sum_congr rfl fun d _ =>
    congrArg (fun z => z * W (ix2 o d)) (flatten_apply x h b s d ⟨b.val * 2048 + s.val, by omega⟩ rfl)

end Cert.Linear

end
-- ==== Proof.LibAcc.lean ====
import Mathlib.Algebra.BigOperators.Fin

/-!
# An accumulator that is reset at the start of each stretch

The points `0, 1, …, B * T - 1` fall into `B` stretches of `T` consecutive points.  An accumulator that
holds the point's term at the first point of a stretch, and at every other point what the point before left
plus the point's term, holds at point `i` of stretch `b` the sum of the terms of the points `0, …, i` of that
stretch; at the stretch's last point, the sum over the whole stretch.
-/

namespace Cert.LibAcc

/-- Point `k` of stretch `b` is a point. -/
theorem idx_lt {T B : ℕ} (b : Fin B) {k : ℕ} (hk : k < T) : b.val * T + k < B * T :=
  calc b.val * T + k < b.val * T + T := Nat.add_lt_add_left hk _
    _ = (b.val + 1) * T := (Nat.succ_mul _ _).symm
    _ ≤ B * T := Nat.mul_le_mul_right T b.isLt

/-- Point `k` of a stretch has remainder `k`. -/
theorem mod_eq (b T k : ℕ) (hk : k < T) : (b * T + k) % T = k := by
  rw [Nat.add_comm, Nat.add_mul_mod_self_right, Nat.mod_eq_of_lt hk]

section
variable {M : Type} [AddCommMonoid M] (T B : ℕ) (acc s : (n : ℕ) → n < B * T → M)

/-- The accumulator at equal points. -/
theorem acc_congr {n n' : ℕ} (e : n = n') (h : n < B * T) (h' : n' < B * T) : acc n h = acc n' h' := by
  subst e; rfl

variable (hreset : ∀ n (hn : n < B * T), n % T = 0 → acc n hn = s n hn)
  (hstep : ∀ n (hn : n < B * T) (h : n % T ≠ 0), acc n hn = acc (n - 1) (by omega) + s n hn)

include hreset hstep in
/-- At point `k` of stretch `b` the accumulator holds the sum of the stretch's terms up to `k`. -/
theorem acc_prefix (b : Fin B) : ∀ (k : ℕ) (hk : k < T),
    acc (b.val * T + k) (idx_lt b hk)
      = ∑ i' : Fin (k + 1), s (b.val * T + i'.val) (idx_lt b (Nat.lt_of_lt_of_le i'.isLt hk))
  | 0, hk => by
    rw [Fin.sum_univ_one]
    exact hreset _ _ (mod_eq b.val T 0 hk)
  | k + 1, hk => by
    rw [Fin.sum_univ_castSucc]
    have hmod : (b.val * T + (k + 1)) % T ≠ 0 := by rw [mod_eq b.val T (k + 1) hk]; omega
    rw [hstep _ _ hmod]
    refine congrArg₂ (· + ·) ?_ rfl
    exact (acc_congr T B acc (by omega) _ (idx_lt b (Nat.lt_of_succ_lt hk))).trans
      (acc_prefix b k (Nat.lt_of_succ_lt hk))

include hreset hstep in
/-- The same over the points of a stretch as `Fin T`. -/
theorem acc_stretch (b : Fin B) (i : Fin T) :
    acc (b.val * T + i.val) (idx_lt b i.isLt)
      = ∑ i' : Fin (i.val + 1), s (b.val * T + i'.val) (idx_lt b (Nat.lt_of_lt_of_le i'.isLt i.isLt)) :=
  acc_prefix T B acc s hreset hstep b i.val i.isLt

include hreset hstep in
/-- At the last point of a stretch the accumulator holds the stretch's sum. -/
theorem acc_last (hT : 0 < T) (b : Fin B) :
    acc (b.val * T + (T - 1)) (idx_lt b (by omega)) = ∑ i : Fin T, s (b.val * T + i.val) (idx_lt b i.isLt) := by
  cases T with
  | zero => omega
  | succ T' => exact acc_prefix (T' + 1) B acc s hreset hstep b T' (Nat.lt_succ_self T')

end

section
variable {M : Type} [AddCommMonoid M] (T B : ℕ) (acc s : (n : ℕ) → n < B * T → M) (z : M) (hz : z = 0)
  (hreset : ∀ n (hn : n < B * T), n % T = 0 → acc n hn = z + s n hn)
  (hstep : ∀ n (hn : n < B * T) (h : n % T ≠ 0), acc n hn = acc (n - 1) (by omega) + s n hn)

include hz hreset hstep in
/-- The same when the first point of a stretch adds its term to a zero. -/
theorem acc_stretch_zero (b : Fin B) (i : Fin T) :
    acc (b.val * T + i.val) (idx_lt b i.isLt)
      = ∑ i' : Fin (i.val + 1), s (b.val * T + i'.val) (idx_lt b (Nat.lt_of_lt_of_le i'.isLt i.isLt)) :=
  acc_stretch T B acc s (fun n hn h => by rw [hreset n hn h, hz, zero_add]) hstep b i

include hz hreset hstep in
theorem acc_last_zero (hT : 0 < T) (b : Fin B) :
    acc (b.val * T + (T - 1)) (idx_lt b (by omega)) = ∑ i : Fin T, s (b.val * T + i.val) (idx_lt b i.isLt) :=
  acc_last T B acc s (fun n hn h => by rw [hreset n hn h, hz, zero_add]) hstep hT b

end

end Cert.LibAcc
-- ==== Proof.Accumulate.lean ====
/-
  The output block at the last point of a run of four: a whole entry of the layer.

  Fix an entry `(p, q)` of the 1024 × 1024 output block.  Point `n` contributes its share
  `∑ k, a n (p, k) * b n (q, k)` — the inner product over the stretch of the contraction axis that point works on.
  The accumulator's entry is that share (added to zero) at a point with `n % 4 = 0`, and what the point before left
  plus that share at any other point; so at point `4 * g + 3` it is the sum of the shares of points
  `4 * g, …, 4 * g + 3`.  Those four points have the same token rows and output features and work on the four
  stretches `0, 1, 2, 3` in order, so the sum of their shares is the whole inner product: entry
  `(1024 * (t / 16) + p, 1024 * (t / 4 % 4) + q)` of the layer.
-/
import proofs.«107128_j8143257994015_1_alg».proof.Proof.Blocks
import proofs.«107128_j8143257994015_1_alg».proof.Proof.Step
import proofs.«107128_j8143257994015_1_alg».proof.Proof.Spec
import proofs.«107128_j8143257994015_1_alg».proof.Proof.LibAcc

noncomputable section

open scoped BigOperators
open Idealize.ShloMosaic Idealize.ShloMosaic.TcCoe Idealize.SL.Sem Idealize.ShloMosaic.ValueIdx

namespace Cert.KernelIdeal.Body

open Cert.KernelIdeal Cert.KernelIdeal.Gen Cert.Linear

variable (m : (ℓ : Loc nD τ sig) → Buf (Elt Ideal) ℓ)

/-- The grid's 128 points are 32 runs of 4. -/
theorem hN : cfg0.N = 32 * 4 := N_0

/-- Point `n`'s share of entry `(p, q)`: the inner product of its two blocks' rows `p` and `q`. -/
def share (c : Dev nD) (p q : Fin 1024) (n : ℕ) (h : n < 32 * 4) : EReal :=
  ∑ k : Fin 1024, ablk m c ⟨n, lt_of_lt_of_eq h hN.symm⟩ (ix2 p k) * bblk m c ⟨n, lt_of_lt_of_eq h hN.symm⟩ (ix2 q k)

/-- The accumulator's entry `(p, q)` after point `n`. -/
def accv (c : Dev nD) (p q : Fin 1024) (n : ℕ) (h : n < 32 * 4) : EReal :=
  (outsAt0 m c n (lt_of_lt_of_eq h hN.symm)).2 (ix2 p q)

theorem accv_reset (c : Dev nD) (p q : Fin 1024) (n : ℕ) (hn : n < 32 * 4) (h0 : n % 4 = 0) :
    accv m c p q n hn = 0 + share m c p q n hn :=
  (congrFun (acc_at_reset m c ⟨n, lt_of_lt_of_eq hn hN.symm⟩ h0) (ix2 p q)).trans
    ((step_apply _ _ _ p q).trans (congrArg (fun z => z + share m c p q n hn) (reset_apply p q)))

theorem accv_step (c : Dev nD) (p q : Fin 1024) (n : ℕ) (hn : n < 32 * 4) (h0 : n % 4 ≠ 0) :
    accv m c p q n hn = accv m c p q (n - 1) (by omega) + share m c p q n hn :=
  (congrFun (acc_at_step m c ⟨n, lt_of_lt_of_eq hn hN.symm⟩ h0) (ix2 p q)).trans (step_apply _ _ _ p q)

/-- At the last point of run `g` the accumulator's entry is the sum of the run's four shares. -/
theorem accv_last (c : Dev nD) (p q : Fin 1024) (g : Fin 32) :
    accv m c p q (g.val * 4 + (4 - 1)) (Cert.LibAcc.idx_lt g (by omega))
      = ∑ i : Fin 4, share m c p q (g.val * 4 + i.val) (Cert.LibAcc.idx_lt g i.isLt) :=
  Cert.LibAcc.acc_last_zero 4 32 (accv m c p q) (share m c p q) 0 rfl (accv_reset m c p q) (accv_step m c p q) (by norm_num) g

/-- Point `4 * g + i`'s share is stretch `i`'s part of the entry its run computes. -/
theorem share_eq_part (c : Dev nD) (p q : Fin 1024) (g : Fin 32) (i : Fin 4) (r : Fin 8192) (o : Fin 4096)
    (hr : r.val = g.val / 4 * 1024 + p.val) (ho : o.val = g.val % 4 * 1024 + q.val) :
    share m c p q (g.val * 4 + i.val) (Cert.LibAcc.idx_lt g i.isLt) = part (xarr m c) (warr m c) r o i := by
  have hg := g.isLt
  have hi := i.isLt
  unfold share part
  refine Finset.sum_congr rfl fun k _ => ?_
  rw [ablk_apply m c _ p k r (kIdx i k) (by show r.val = (g.val * 4 + i.val) / 16 * 1024 + p.val; omega)
      (by show 1024 * i.val + k.val = 1024 * ((g.val * 4 + i.val) % 4) + k.val; omega),
    bblk_apply m c _ q k o (kIdx i k) (by show o.val = (g.val * 4 + i.val) / 4 % 4 * 1024 + q.val; omega)
      (by show 1024 * i.val + k.val = 1024 * ((g.val * 4 + i.val) % 4) + k.val; omega)]

/-- THE OUTPUT BLOCK at a point that writes it back (`t % 4 = 3`): entry `(p, q)` is the layer's entry at token row
    `1024 * (t / 16) + p` and output feature `1024 * (t / 4 % 4) + q`. -/
theorem out_at_last (c : Dev nD) (t : Fin cfg0.N) (h3 : t.val % 4 = 3) (p q : Fin 1024) (r : Fin 8192) (o : Fin 4096)
    (hr : r.val = t.val / 16 * 1024 + p.val) (ho : o.val = t.val / 4 % 4 * 1024 + q.val) :
    (outsAt0 m c t.val t.isLt).1 (ix2 p q) = entry (xarr m c) (warr m c) r o := by
  have ht : t.val < 32 * 4 := lt_of_lt_of_eq t.isLt (hN)
  rw [out_eq_acc m c t, entry_eq_sum_part]
  have e1 : (outsAt0 m c t.val t.isLt).2 (ix2 p q) = accv m c p q t.val ht := rfl
  have e2 : accv m c p q t.val ht
      = accv m c p q ((⟨t.val / 4, by omega⟩ : Fin 32).val * 4 + (4 - 1)) (Cert.LibAcc.idx_lt _ (by omega)) :=
    Cert.LibAcc.acc_congr 4 32 (accv m c p q) (by show t.val = t.val / 4 * 4 + (4 - 1); omega) _ _
  rw [e1, e2, accv_last]
  refine Finset.sum_congr rfl fun i _ => ?_
  exact share_eq_part m c p q ⟨t.val / 4, by omega⟩ i r o (by show r.val = t.val / 4 / 4 * 1024 + p.val; omega)
    (by show o.val = t.val / 4 % 4 * 1024 + q.val; exact ho)

end Cert.KernelIdeal.Body

end
-- ==== Proof.KernelValue.lean ====
/-
  The kernel's result, as one function of its argument arrays.

  The result array of the kernel's region is tiled by 8 × 4 blocks of 1024 × 1024; block `(I, J)` is written back
  once, after the last of the four points that accumulate into it (`t % 4 = 3`), when it holds the layer's entries at
  token rows `1024 * I + p` and output features `1024 * J + q`.  Every entry `(r, o)` lies in the block of point
  `16 * (r / 1024) + 4 * (o / 1024) + 3`, so after the run the whole array is the layer on the flattened tokens.  The
  program's last line un-flattens the rows, and its lines before the region hand the region the flattened tokens and
  the rescaled weight; so the program's result is the layer on the tokens, as a function of the rescaled weight.
-/
import proofs.«107128_j8143257994015_1_alg».proof.Proof.Accumulate
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Body Cert.Linear

variable (m : (ℓ : Loc nD τ sig) → Buf (Elt Ideal) ℓ) (ρ : Dev nD → PrngReg)

/-- WHAT POINT `t` WRITES BACK, when it writes: its block of the layer on the flattened tokens. -/
theorem flushed_eq (c : Dev nD) (t : Fin cfg0.N) (hf : (cfg0.win 2).flush t = true) :
    (dats m 0 c).flushed 2 t = ((cfg0.win 2).blk t).view.read (Elt Ideal) (rows (xarr m c) (warr m c)) := by
  have h3 : t.val % 4 = 3 := (flush0_2 t).mp hf
  obtain ⟨-, -, -, -, e0, e1⟩ := idx_facts t
  have ht : t.val < 128 := lt_of_lt_of_eq t.isLt N_0
  show (cfg0.win 2).cut (grid0.coords t) ((dats m 0 c).after 2 t) = _
  rw [after0_2]
  funext y
  have hy0 : (y 0).val < 1024 := (y 0).isLt
  have hy1 : (y 1).val < 1024 := (y 1).isLt
  obtain ⟨p, q, rfl⟩ : ∃ (p q : Fin 1024), y = ix2 p q :=
    ⟨⟨(y 0).val, hy0⟩, ⟨(y 1).val, hy1⟩, funext fun a => by match a with | ⟨0, _⟩ => rfl | ⟨1, _⟩ => rfl⟩
  have hp := p.isLt
  have hq := q.isLt
  show (outsAt0 m c t.val t.isLt).1 (ix2 p q) = rows (xarr m c) (warr m c) (((cfg0.win 2).blk t).view.emb (ix2 p q))
  have e : ((cfg0.win 2).blk t).view.emb (ix2 p q)
      = ix2 (⟨t.val / 16 * 1024 + p.val, by omega⟩ : Fin 8192) (⟨t.val / 4 % 4 * 1024 + q.val, by omega⟩ : Fin 4096) :=
    funext fun a => Fin.ext (by
      match a with
      | ⟨0, _⟩ => show win0_2.index t (0 : Fin 2) * 1024 + 1 * p.val = t.val / 16 * 1024 + p.val; rw [e0]; omega
      | ⟨1, _⟩ => show win0_2.index t (1 : Fin 2) * 1024 + 1 * q.val = t.val / 4 % 4 * 1024 + q.val; rw [e1]; omega)
  rw [e, rows_apply]
  exact out_at_last m c t h3 p q _ _ rfl rfl

/-- An entry of the result array is in point `t`'s block iff each coordinate is in the block's range. -/
theorem mem_blk (t : Fin cfg0.N) (i : S8192x4096.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v11).slice (win0_2.rect t)).set ↔ _
  rw [View.set_slice_whole, Rect.mem_set_unit]
  exact Iff.rfl

/-- Every entry of the result array is in the block of a point that writes back. -/
theorem cover (i : S8192x4096.Idx) :
    ∃ t : Fin cfg0.N, (cfg0.win 2).flush t = true ∧ i ∈ ((cfg0.win 2).blk t).view.set := by
  have h0 : (i 0).val < 8192 := (i 0).isLt
  have h1 : (i 1).val < 4096 := (i 1).isLt
  have hlt : (i 0).val / 1024 * 16 + (i 1).val / 1024 * 4 + 3 < cfg0.N := lt_of_lt_of_eq (by omega) N_0.symm
  obtain ⟨-, -, -, -, e0, e1⟩ := idx_facts ⟨_, hlt⟩
  have e0' : win0_2.index ⟨_, hlt⟩ (0 : Fin 2) = ((i 0).val / 1024 * 16 + (i 1).val / 1024 * 4 + 3) / 16 := e0
  have e1' : win0_2.index ⟨_, hlt⟩ (1 : Fin 2) = ((i 0).val / 1024 * 16 + (i 1).val / 1024 * 4 + 3) / 4 % 4 := e1
  refine ⟨⟨_, hlt⟩, (flush0_2 _).mpr (by show ((i 0).val / 1024 * 16 + (i 1).val / 1024 * 4 + 3) % 4 = 3; omega), ?_⟩
  rw [mem_blk]
  intro a
  match a with
  | ⟨0, _⟩ =>
    show win0_2.index ⟨_, hlt⟩ (0 : Fin 2) * 1024 ≤ (i 0).val ∧ (i 0).val < win0_2.index ⟨_, hlt⟩ (0 : Fin 2) * 1024 + 1024
    rw [e0']; omega
  | ⟨1, _⟩ =>
    show win0_2.index ⟨_, hlt⟩ (1 : Fin 2) * 1024 ≤ (i 1).val ∧ (i 1).val < win0_2.index ⟨_, hlt⟩ (1 : Fin 2) * 1024 + 1024
    rw [e1']; omega

/-- THE RESULT ARRAY OF THE REGION after the run: the layer on the flattened tokens. -/
theorem final (c : Dev nD) : (dats m 0 c).arrAt 2 cfg0.N = rows (xarr m c) (warr m c) :=
  (dats m 0 c).arrAt_eq_of_cover 2 (rows (xarr m c) (warr m c)) (flushed_eq m c) cover

/-- The region finds the tokens flattened: the program's reshape of its first argument. -/
theorem xarr_eq (c : Dev nD) :
    xarr m c = shapeCast S8192x4096 (m ((c : Thread nD τ).loc main_arg0)) shapeCasts_S4x2048x4096_S8192x4096 := by
  show V m c main_v10 = _
  dsimp only [V, V0]
  simp only [hostOps0, hostOps0_1, hostOps0_2, List.flatten_cons, List.flatten_nil, List.append_nil, List.cons_append,
    List.nil_append]
  after_results
  rfl

/-- The program's last line un-flattens the region's result array. -/
theorem tail_eq (c : Dev nD) :
    Pipeline.afterTail₀ cfgs (dats m) 0 (V0 m) [hostOps1] c main_v12
      = shapeCast S4x2048x4096 ((dats m 0 c).arrAt 2 cfg0.N) shapeCasts_S8192x4096_S4x2048x4096 := by
  unfold Pipeline.afterTail₀
  show StableHlo.after hostOps1 _ (Proc.devRef .tc main_v12) = _
  after_results
  exact congrArg (fun z => shapeCast S4x2048x4096 z shapeCasts_S8192x4096_S4x2048x4096)
    (Pipeline.withArrays_arr spec0 launch0.win.arr_inj c _ _ 2)

/-- THE PROGRAM'S RESULT: the layer on the tokens, with the rescaled weight the region was handed. -/
theorem result_eq (c : Dev nD) :
    Pipeline.afterTail₀ cfgs (dats m) 0 (V0 m) [hostOps1] c main_v12
      = layer (m ((c : Thread nD τ).loc main_arg0)) (warr m c) := by
  rw [tail_eq, final, xarr_eq]
  exact unflatten_rows _ _ _ _

/-- The run, read: the result at the layer of the first argument and the rescaled weight, the arguments unchanged. -/
theorem run : θ_run defs (onTc (τ := τ) (main (F := Ideal))) ⟨m, fun _ => 0, ρ⟩ fun r => ∀ c : Dev nD,
      r.2.mem ((c : Thread nD τ).loc main_v12) = layer (m ((c : Thread nD τ).loc main_arg0)) (warr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v12 (Pipeline.mem_restRefs_of main_v12 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.Bridge.lean ====
/-
  The two programs compute one function.

  Both programs build the rescaled weight from the parameters with the same operations in the same order (tile the
  adapter, add it to the weight, divide each column by its norm, multiply by the magnitudes), so the weight the
  kernel's region is handed is the reference's own term of the parameters.  The reference then contracts the tokens'
  last axis with the weight's last axis; read at an entry `(b, s, o)` that is the inner product of `x[b, s, ·]` with
  row `o` of the weight: the layer.
-/
import proofs.«107128_j8143257994015_1_alg».proof.Proof.KernelValue
import proofs.«107128_j8143257994015_1_alg».proof.Proof.Gen.ReferenceIdeal.Read

noncomputable section

open scoped BigOperators
open Idealize.ShloMosaic Idealize.ShloMosaic.TcCoe Idealize.SL.Sem Idealize.ShloMosaic.ValueIdx

namespace Cert.Bridge

open Cert.Linear

/-- The rescaled weight the kernel's region is handed is the reference's term of the three parameter arrays. -/
theorem warr_eq (m : (ℓ : Loc Cert.KernelIdeal.nD Cert.KernelIdeal.τ Cert.KernelIdeal.sig) → Buf (Elt Ideal) ℓ)
    (c : Dev Cert.KernelIdeal.nD) :
    Cert.KernelIdeal.Body.warr m c
      = Cert.ReferenceIdeal.Read.val_main_v9 (F := Ideal)
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3)) := by
  show Cert.KernelIdeal.Gen.V m c Cert.KernelIdeal.main_v9 = _
  dsimp only [Cert.KernelIdeal.Gen.V, Cert.KernelIdeal.Gen.V0]
  simp only [Cert.KernelIdeal.Gen.hostOps0, Cert.KernelIdeal.Gen.hostOps0_1, Cert.KernelIdeal.Gen.hostOps0_2,
    List.flatten_cons, List.flatten_nil, List.append_nil, List.cons_append, List.nil_append]
  after_results
  rfl

/-- The reference's result is the layer on its tokens and its rescaled weight. -/
theorem ref_eq (x0 : (⟨Cert.ReferenceIdeal.S4x2048x4096, .f32⟩ : BufTy).Contents (Elt Ideal))
    (x1 : (⟨Cert.ReferenceIdeal.S4096x4096, .f32⟩ : BufTy).Contents (Elt Ideal))
    (x2 : (⟨Cert.ReferenceIdeal.S2048x2048, .f32⟩ : BufTy).Contents (Elt Ideal))
    (x3 : (⟨Cert.ReferenceIdeal.S1x4096, .f32⟩ : BufTy).Contents (Elt Ideal)) :
    Cert.ReferenceIdeal.Read.val_main_v10 (F := Ideal) x0 x1 x2 x3
      = layer x0 (Cert.ReferenceIdeal.Read.val_main_v9 (F := Ideal) x1 x2 x3) := by
  funext i
  obtain ⟨b, s, o, rfl⟩ : ∃ (b : Fin 4) (s : Fin 2048) (o : Fin 4096), i = ix3 b s o := ⟨i 0, i 1, i 2, eq_ix3 i⟩
  rw [Cert.ReferenceIdeal.Read.val_main_v10_apply, layer_apply]
  refine Finset.sum_congr rfl fun k _ => ?_
  have el : Cert.ReferenceIdeal.Read.lidx_main_v10 (ix3 b s o) k = ix3 b s k :=
    funext fun a => by match a with | ⟨0, _⟩ => rfl | ⟨1, _⟩ => rfl | ⟨2, _⟩ => rfl
  have er : Cert.ReferenceIdeal.Read.ridx_main_v10 (ix3 b s o) k = ix2 o k :=
    funext fun a => by match a with | ⟨0, _⟩ => rfl | ⟨1, _⟩ => rfl
  rw [el, er]

end Cert.Bridge

end
-- ==== Proof.lean ====
/-
  The certificate of a tiled linear layer against its einsum reference, over the extended reals.

  Both programs first rescale the weight from the parameters (tile the small adapter into the full weight, add, divide
  each column by its norm, multiply by the magnitudes) with the same host operations.  The reference then contracts the
  tokens with the rescaled weight in one `dot_general`; the kernel flattens the tokens to 8192 rows, computes the
  product block by block on an 8 × 4 × 4 grid — each 1024 × 1024 output block accumulated over four stretches of the
  contraction axis in a scratch accumulator that is zeroed at the first stretch — and un-flattens the rows.

  Over the extended reals a change of float format is the identity, the kernel's block product from a zero block and the
  host's contraction are plain sums of products, and a sum may be taken stretch by stretch (addition is commutative and
  associative; no cancellation, so no finiteness is needed).  Hence both results are, entry by entry,
  `∑ d, x[b, s, d] * W[o, d]` of the same rescaled weight `W`.

  The three frames are the generated ones (the reference's is its generated run with the result dropped); the ideal
  pass rewrote nothing, so `preserves` is trivial.
-/
import proofs.«107128_j8143257994015_1_alg».proof.Defs
import proofs.«107128_j8143257994015_1_alg».proof.Proof.Gen.Kernel
import proofs.«107128_j8143257994015_1_alg».proof.Proof.Gen.Kernel.Skeleton
import proofs.«107128_j8143257994015_1_alg».proof.Proof.Gen.Kernel.Launch
import proofs.«107128_j8143257994015_1_alg».proof.Proof.Gen.Kernel.Points
import proofs.«107128_j8143257994015_1_alg».proof.Proof.Gen.Kernel.Frame
import proofs.«107128_j8143257994015_1_alg».proof.Proof.Gen.KernelIdeal
import proofs.«107128_j8143257994015_1_alg».proof.Proof.Gen.KernelIdeal.Skeleton
import proofs.«107128_j8143257994015_1_alg».proof.Proof.Gen.KernelIdeal.Launch
import proofs.«107128_j8143257994015_1_alg».proof.Proof.Gen.KernelIdeal.Points
import proofs.«107128_j8143257994015_1_alg».proof.Proof.Gen.KernelIdeal.Frame
import proofs.«107128_j8143257994015_1_alg».proof.Proof.Gen.ReferenceIdeal
import proofs.«107128_j8143257994015_1_alg».proof.Proof.Gen.Pre_finite_inputs
import proofs.«107128_j8143257994015_1_alg».proof.Proof.Gen.ReferenceIdeal.Run
import proofs.«107128_j8143257994015_1_alg».proof.Proof.Gen.ReferenceIdeal.Read
import proofs.«107128_j8143257994015_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the four arguments, both programs end with the layer of the tokens and of the one
    rescaled weight the parameters determine. -/
theorem algebraic : Cert.algebraic_KernelIdeal_ReferenceIdeal := by
  intro m ρ m' ρ' _ hagree
  refine ⟨fun c => Cert.Linear.layer (m ((c : Thread Cert.KernelIdeal.nD Cert.KernelIdeal.τ).loc Cert.KernelIdeal.main_arg0))
    (Cert.KernelIdeal.Body.warr m c), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Read.val_main_v10 (F := Ideal)
      (m' ((c : Thread Cert.ReferenceIdeal.nD Cert.ReferenceIdeal.τ).loc Cert.ReferenceIdeal.main_arg0))
      (m' ((c : Thread Cert.ReferenceIdeal.nD Cert.ReferenceIdeal.τ).loc Cert.ReferenceIdeal.main_arg1))
      (m' ((c : Thread Cert.ReferenceIdeal.nD Cert.ReferenceIdeal.τ).loc Cert.ReferenceIdeal.main_arg2))
      (m' ((c : Thread Cert.ReferenceIdeal.nD Cert.ReferenceIdeal.τ).loc Cert.ReferenceIdeal.main_arg3))
    = Cert.Linear.layer (m ((c : Thread Cert.KernelIdeal.nD Cert.KernelIdeal.τ).loc Cert.KernelIdeal.main_arg0))
      (Cert.KernelIdeal.Body.warr m c)
  rw [Cert.Bridge.ref_eq, Cert.Bridge.warr_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
